-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S128 : Shape := ⟨1, ![128]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : FVec F S16384x2048 .f32) (main_arg2 : IVec S128 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S16384x2048 : Shape := ⟨2, ![16384, 2048]⟩
abbrev S128 : Shape := ⟨1, ![128]⟩
abbrev S128x128x2048 : Shape := ⟨3, ![128, 128, 2048]⟩
abbrev S128x128 : Shape := ⟨2, ![128, 128]⟩
abbrev S16x128x512 : Shape := ⟨3, ![16, 128, 512]⟩
abbrev S16x128 : Shape := ⟨2, ![16, 128]⟩
abbrev S128x1 : Shape := ⟨2, ![128, 1]⟩
abbrev S1x128 : Shape := ⟨2, ![1, 128]⟩
abbrev S_ : Shape := ⟨0, ![]⟩

abbrev nBuf : Space → Nat
  | .hbm => 33
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S128, .i32⟩
  | .hbm, ⟨3, _⟩ => ⟨S128x128x2048, .f32⟩
  | .hbm, ⟨4, _⟩ => ⟨S128x128x2048, .f32⟩
  | .hbm, ⟨5, _⟩ => ⟨S128x128, .f32⟩
  | .hbm, ⟨6, _⟩ => ⟨S128x1, .i32⟩
  | .hbm, ⟨7, _⟩ => ⟨S1x128, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S_, .f32⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S16x128x512, .f32⟩
  | .local _ .vmem, ⟨1, _⟩ => ⟨S16x128x512, .f32⟩
  | .local _ .vmem, ⟨2, _⟩ => ⟨S16x128x512, .f32⟩
  | .local _ .vmem, ⟨3, _⟩ => ⟨S16x128x512, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_call0_v0 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_call1_v0 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16384x2048_S128x128x2048 : S16384x2048.ShapeCasts S128x128x2048
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x128x512_S16x128x512_0_0_0 : ∀ a, (![0, 0, 0] : Fin 3 → Nat) a + S16x128x512.size a ≤ S16x128x512.size a
  h_S16x128x512 : 0 < S16x128x512.numel
  shapeCasts_S16x128x512_S16x128x512 : S16x128x512.ShapeCasts S16x128x512
  reduces_S16x128x512_S16x128 : S16x128x512.Reduces [2] S16x128
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  reducesTo_S128x128_S128_d1 : S128x128.ReducesTo [1] S128
  h_S_ : 0 < S_.numel
  bcast_S_S128 : S_.BroadcastsInDim S128 (![] : Fin 0 → Fin S128.rank)
  reducesTo_S128_S_d0 : S128.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x512.size a ≤ S128x128x2048.size a
  hwx0_0 : ∀ i : grid0.Coords, EltTy.bits .f32 = 32 ∨ (Rect.block (s := S128x128x2048) S16x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x512.size a ≤ S128x128x2048.size a
  hwx0_1 : ∀ i : grid0.Coords, EltTy.bits .f32 = 32 ∨ (Rect.block (s := S128x128x2048) S16x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S128x128.size a
  hwx0_2 : ∀ i : grid0.Coords, EltTy.bits .f32 = 32 ∨ (Rect.block (s := S128x128) S16x128.size (cc0_transform_2 i) (hinb0_2 i)).WholeWords (EltTy.packing .f32)

variable [Facts₀]

abbrev win0_0 : Pipeline.Window sig grid0 :=
  Pipeline.Window.ofSpec (Memref.whole main_v0) S16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x2048 : Shape := ⟨2, ![16384, 2048]⟩
abbrev S128 : Shape := ⟨1, ![128]⟩
abbrev S_ : Shape := ⟨0, ![]⟩
abbrev S16384 : Shape := ⟨1, ![16384]⟩
abbrev S128x128 : Shape := ⟨2, ![128, 128]⟩
abbrev S128x1 : Shape := ⟨2, ![128, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S128, .i32⟩
  | .hbm, ⟨3, _⟩ => ⟨S16384x2048, .f32⟩
  | .hbm, ⟨4, _⟩ => ⟨S_, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S128x128, .f32⟩
  | .hbm, ⟨12, _⟩ => ⟨S128x1, .i32⟩
  | .hbm, ⟨13, _⟩ => ⟨S1x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_call0_v0 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_call1_v0 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  reducesTo_S16384x2048_S16384_d1 : S16384x2048.ReducesTo [1] S16384
  h_S_ : 0 < S_.numel
  shapeCasts_S16384_S128x128 : S16384.ShapeCasts S128x128
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  reducesTo_S128x128_S128_d1 : S128x128.ReducesTo [1] S128
  bcast_S_S128 : S_.BroadcastsInDim S128 (![] : Fin 0 → Fin S128.rank)
  reducesTo_S128_S_d0 : S128.ReducesTo [0] S_

variable [Facts₀]

class Facts : Prop extends Facts₀ where

variable [Facts]
-- ==== Proof.DistSpec.lean ====
/-
  The pairwise distance both programs compute, as one function of the two [16384, 2048] argument arrays.

  Row ρ = 128·p + q of each array holds the 2048 features of the pair (p, q). The distance of the pair is
  √(∑ⱼ (x₀[ρ, j] − x₁[ρ, j] + ε)²) over the extended reals, ε the exact binary value of the f32 word nearest 10⁻⁶.
  The sum is taken over a range of naturals, so that a prefix of the lanes is a partial sum and four consecutive
  blocks of 512 lanes add up to the whole: addition of extended reals is commutative and associative, which is all
  the regrouping of the sum needs — no entry has to be finite.
-/
import Idealize.ShloMosaic.PureOps.Ideal
import Idealize.ShloMosaic.Lib.ValueIdx
import Mathlib.Algebra.BigOperators.Fin

noncomputable section

namespace Cert.PairDist

open Idealize.ShloMosaic Idealize.ShloMosaic.ValueIdx

/-- A [16384, 2048] array of extended reals. -/
abbrev Arr : Type := (⟨2, ![16384, 2048]⟩ : Shape).Idx → EReal

/-- The offset added to every difference. -/
def eps : EReal := Ideal.ofBits .f32 0x358637BD#32

/-- Entry (ρ, j) of an array, read by natural numbers; zero outside the array. -/
def at2 (X : Arr) (ρ j : ℕ) : EReal :=
  if h : ρ < 16384 ∧ j < 2048 then X (ix2 ⟨ρ, h.1⟩ ⟨j, h.2⟩) else 0

theorem at2_ix (X : Arr) (ρ : Fin 16384) (j : Fin 2048) : at2 X ρ.val j.val = X (ix2 ρ j) :=
  dif_pos ⟨ρ.isLt, j.isLt⟩

/-- The squared offset difference at lane j of row ρ. -/
def sqd (X0 X1 : Arr) (ρ j : ℕ) : EReal :=
  (at2 X0 ρ j - at2 X1 ρ j + eps) * (at2 X0 ρ j - at2 X1 ρ j + eps)

/-- The sum of the squared offset differences over the first n lanes of row ρ. -/
def psum (X0 X1 : Arr) (ρ n : ℕ) : EReal := ∑ j ∈ Finset.range n, sqd X0 X1 ρ j

theorem psum_zero (X0 X1 : Arr) (ρ : ℕ) : psum X0 X1 ρ 0 = 0 := Finset.sum_range_zero _

/-- A further block of 512 lanes extends the partial sum by that block's sum. -/
theorem psum_block (X0 X1 : Arr) (ρ d : ℕ) :
    psum X0 X1 ρ (512 * (d + 1)) = psum X0 X1 ρ (512 * d) + ∑ k : Fin 512, sqd X0 X1 ρ (512 * d + k.val) := by
  unfold psum
  rw [show 512 * (d + 1) = 512 * d + 512 from by ring, Finset.sum_range_add,
    Fin.sum_univ_eq_sum_range (fun k => sqd X0 X1 ρ (512 * d + k)) 512]

/-- The whole row's sum, over the 2048 lanes as a finite type. -/
theorem psum_full (X0 X1 : Arr) (ρ : ℕ) : psum X0 X1 ρ 2048 = ∑ k : Fin 2048, sqd X0 X1 ρ k.val := by
  unfold psum
  rw [Fin.sum_univ_eq_sum_range (fun k => sqd X0 X1 ρ k) 2048]

/-- The [128, 128] matrix of pairwise distances: entry (p, q) is the root of row 128·p + q's whole sum. -/
def pairDist (X0 X1 : Arr) : (⟨2, ![128, 128]⟩ : Shape).Idx → EReal :=
  fun i => Ideal.sqrt (psum X0 X1 ((i 0).val * 128 + (i 1).val) 2048)

end Cert.PairDist

end
-- ==== Proof.RefTerm.lean ====
/-
  The reference, read as "the loss of the distance matrix".

  Its last twenty-seven operations turn the [128, 128] distance matrix D and the 128 labels into the scalar loss:
  with same(p, q) the mask of equal labels, the hardest positive of row p is the maximum over q of (D where same,
  else −M), the hardest negative the minimum over q of (M where same, else D), M the largest finite f32; the loss is
  the mean over p of max(positive − negative + margin, 0). The kernel program ends with the same operations applied
  to its own distance matrix, so this tail is named once here and never opened: equal distance matrices give equal
  losses. What remains of the reference is its distance stage, which is the specified distance index by index: the
  reshape reads row 128·p + q, the host sum is its initial zero plus the sum over the 2048 lanes, and the host's
  square root is the root.
-/
import proofs.«176598_j9337258902044_1_alg».proof.Defs
import proofs.«176598_j9337258902044_1_alg».proof.Proof.Gen.ReferenceIdeal.Run
import proofs.«176598_j9337258902044_1_alg».proof.Proof.Gen.ReferenceIdeal.Read
import proofs.«176598_j9337258902044_1_alg».proof.Proof.DistSpec
import Idealize.ShloMosaic.Lib.ValueIdx

noncomputable section

namespace Cert.ReferenceIdeal.Loss

open Cert.ReferenceIdeal Cert.ReferenceIdeal.Gen Cert.ReferenceIdeal.Read Cert.PairDist
open Idealize.ShloMosaic Idealize.ShloMosaic.TcCoe Idealize.SL.Sem Idealize.ShloMosaic.ValueIdx

variable {F : FTy → Type} [FloatOps F]

/-- The mask of equal labels: entry (p, q) compares label p with label q. -/
def same (tg : (⟨S128, .i32⟩ : BufTy).Contents (Elt F)) : (⟨S128x128, .i1⟩ : BufTy).Contents (Elt F) :=
  cmpi .eq (broadcastInDim S128x128 ![0, 1] bcast_S128x1_S128x128_0_1 (broadcastInDim S128x1 ![0] bcast_S128_S128x1_0 tg))
    (broadcastInDim S128x128 ![0, 1] bcast_S1x128_S128x128_0_1 (broadcastInDim S1x128 ![1] bcast_S128_S1x128_1 tg))

/-- The loss of a distance matrix and the labels: the mean over the rows of the hinge of hardest positive minus hardest
    negative plus the margin. -/
def loss (D : (⟨S128x128, .f32⟩ : BufTy).Contents (Elt F)) (tg : (⟨S128, .i32⟩ : BufTy).Contents (Elt F)) :
    (⟨S_, .f32⟩ : BufTy).Contents (Elt F) :=
  Host.divf (Host.reduceAdd (maximumf (addf (subf
    (Host.reduce FloatOps.maximumf (select (same tg) D (broadcastInDim S128x128 ![] bcast_S_S128x128 (Host.negf (constant S_ .f32 0x7F7FFFFF#32)))) (constant S_ .f32 0xFF800000#32) reducesTo_S128x128_S128_d1 h_S_)
    (Host.reduce FloatOps.minimumf (select (same tg) (broadcastInDim S128x128 ![] bcast_S_S128x128 (constant S_ .f32 0x7F7FFFFF#32)) D) (constant S_ .f32 0x7F800000#32) reducesTo_S128x128_S128_d1 h_S_))
    (broadcastInDim S128 ![] bcast_S_S128 (constant S_ .f32 0x3E99999A#32))) (broadcastInDim S128 ![] bcast_S_S128 (constant S_ .f32 0x00000000#32)))
    (constant S_ .f32 0x00000000#32) reducesTo_S128_S_d0 h_S_) (constant S_ .f32 0x43000000#32)

/-- The reference's result term is the loss of its distance stage. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = loss (val_main_v6 (F := F) (m ((c.tc : Thread nD τ).loc main_arg0)) (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := F) m ρ

/-- The row the reshape and the host sum read for pair (p, q) at lane k. -/
theorem idx_row (i : S128x128.Idx) (k : Fin 2048) :
    idx_main_v4 (idx_main_v6 i) k
      = ix2 ⟨(i 0).val * 128 + (i 1).val, by have h0 : (i 0).val < 128 := (i 0).isLt; have h1 : (i 1).val < 128 := (i 1).isLt; show _ < 16384; omega⟩ k :=
  funext fun a => Fin.ext (by match a with | ⟨0, _⟩ => rfl | ⟨1, _⟩ => rfl)

/-- The reference's distance stage is the specified distance. -/
theorem dist_eq (x0 x1 : Arr) : val_main_v6 (F := Ideal) x0 x1 = pairDist x0 x1 := by
  funext i
  rw [val_main_v6_apply, val_main_v5_apply, val_main_v4_apply, val_main_cst_0_apply]
  unfold pairDist
  rw [psum_full]
  simp only [Ideal.hostUnary_sqrt_def, Ideal.ofBits_def, Ideal.ofBits_zero_f32, zero_add]
  refine congrArg Ideal.sqrt (Finset.sum_congr rfl fun k _ => ?_)
  rw [val_main_v3_apply, val_main_v2_apply, val_main_v0_apply, val_main_v1_apply, val_main_cst_apply, idx_row]
  unfold sqd eps
  rw [at2_ix x0 ⟨_, _⟩ k, at2_ix x1 ⟨_, _⟩ k]
  rfl

end Cert.ReferenceIdeal.Loss

end
-- ==== Proof.KernelPieces.lean ====
/-
  What one run of the kernel body leaves behind, case by case, as values.

  The body keeps a [16, 128] accumulator in scratch. At the first of a row block's four points it stores the zero
  block there and then stores the zero block plus the point's contribution; at the later points it stores what the
  point before left plus the point's contribution; and at the fourth point it also stores, into the output block,
  the square root of what it has just left in the accumulator. Each of these is ONE whole-block store read back, so
  the contents left are the last store's payload, its loads of the accumulator reading the store before them.
-/
import proofs.«176598_j9337258902044_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a row block: the accumulator ends at the zero block plus the point's contribution. -/
theorem acc_first (c : Dev nD) (i : grid0.Coords) (a2 : Memref sig .tc .vmem S16x128x512 .f32) (h2 : a2.IsWhole)
    (a3 : Memref sig .tc .vmem S16x128x512 .f32) (h3 : a3.IsWhole) (a4 : Memref sig .tc .vmem S16x128 .f32) (h4 : a4.IsWhole)
    (a5 : Memref sig .tc .vmem S16x128 .f32) (h5 : a5.IsWhole) (hc0 : cond0_0 i) (hc1 : ¬cond0_1 i)
    (x0 x1 : Vec F S16x128x512 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S16x128) hz2, View.readCov_unit_zero (S := S16x128) _ hz2]
  simp only [View.readAt_eq_ld, h2.read_unread, h3.read_unread, View.ld_unit_zero (S := S16x128x512) hz3]

/-- A middle point: the accumulator ends at what the point before left plus the point's contribution. -/
theorem acc_middle (c : Dev nD) (i : grid0.Coords) (a2 : Memref sig .tc .vmem S16x128x512 .f32) (h2 : a2.IsWhole)
    (a3 : Memref sig .tc .vmem S16x128x512 .f32) (h3 : a3.IsWhole) (a4 : Memref sig .tc .vmem S16x128 .f32) (h4 : a4.IsWhole)
    (a5 : Memref sig .tc .vmem S16x128 .f32) (h5 : a5.IsWhole) (hc0 : ¬cond0_0 i) (hc1 : ¬cond0_1 i)
    (x0 x1 : Vec F S16x128x512 .f32) (xs0 : Vec F S16x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S16x128x512) hz3,
    View.ld_unit_zero (S := S16x128) hz2]

/-- The last point of a row block leaves the accumulator as a middle point does; -/
theorem acc_last (c : Dev nD) (i : grid0.Coords) (a2 : Memref sig .tc .vmem S16x128x512 .f32) (h2 : a2.IsWhole)
    (a3 : Memref sig .tc .vmem S16x128x512 .f32) (h3 : a3.IsWhole) (a4 : Memref sig .tc .vmem S16x128 .f32) (h4 : a4.IsWhole)
    (a5 : Memref sig .tc .vmem S16x128 .f32) (h5 : a5.IsWhole) (hc0 : ¬cond0_0 i) (hc1 : cond0_1 i)
    (x0 x1 : Vec F S16x128x512 .f32) (xs0 : Vec F S16x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S16x128x512) hz3,
    View.ld_unit_zero (S := S16x128) hz2]

/-- and the output block at the root of that accumulator. -/
theorem out_last (c : Dev nD) (i : grid0.Coords) (a2 : Memref sig .tc .vmem S16x128x512 .f32) (h2 : a2.IsWhole)
    (a3 : Memref sig .tc .vmem S16x128x512 .f32) (h3 : a3.IsWhole) (a4 : Memref sig .tc .vmem S16x128 .f32) (h4 : a4.IsWhole)
    (a5 : Memref sig .tc .vmem S16x128 .f32) (h5 : a5.IsWhole) (hc0 : ¬cond0_0 i) (hc1 : cond0_1 i)
    (x0 x1 : Vec F S16x128x512 .f32) (xs0 : Vec F S16x128 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz2, View.readCov_unit_zero (S := S16x128) _ hz2]
  simp only [View.readAt_eq_ld, h2.read_unread, h3.read_unread, h5.read_unread, View.ld_unit_zero (S := S16x128x512) hz3,
    View.ld_unit_zero (S := S16x128) hz2]

end Cert.KernelIdeal.Pieces

end
-- ==== Proof.KernelPayload.lean ====
/-
  The body's three store payloads over the extended reals, read at an index.

  The accumulation step adds to the accumulator, at row r and pair column q of the block, the sum over the block's
  512 lanes of (x₀ − x₁ + ε)²: the lane reduction starts from the additive neutral, so it is the plain sum, and the
  format-preserving casts around it are identities. The reset stores zero; the closing store takes the square root.
-/
import proofs.«176598_j9337258902044_1_alg».proof.Proof.Gen.KernelIdeal.Skeleton
import proofs.«176598_j9337258902044_1_alg».proof.Proof.DistSpec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.PairDist
open Idealize.ShloMosaic Idealize.ShloMosaic.ValueIdx

/-- The index the lane reduction reads for result (r, q) at lane k is (r, q, k). -/
theorem lift_lane (r : Fin 16) (q : Fin 128) (k : Fin 512) :
    reduces_S16x128x512_S16x128.lift (ix2 r q) k = ix3 r q k :=
  funext fun a => Fin.ext (by match a with | ⟨0, _⟩ => rfl | ⟨1, _⟩ => rfl | ⟨2, _⟩ => rfl)

/-- The accumulation step at (r, q): the accumulator there plus the block's 512 squared offset differences. -/
theorem step_apply (x0 x1 : Vec Ideal S16x128x512 .f32) (acc : Vec Ideal S16x128 .f32) (r : Fin 16) (q : Fin 128) :
    k0_pay2 (F := Ideal) x0 x1 acc (ix2 r q)
      = acc (ix2 r q) + ∑ k : Fin 512, (x0 (ix3 r q k) - x1 (ix3 r q k) + eps) * (x0 (ix3 r q k) - x1 (ix3 r q k) + eps) := by
  unfold k0_pay2
  simp only [shapeCast_self]
  refine (addf_apply _ _ _).trans ?_
  refine congrArg (acc (ix2 r q) + ·) ?_
  refine (Ideal.multiReduction_add_single _ _ reduces_S16x128x512_S16x128 _ _ (ix2 r q)).trans ?_
  refine Finset.sum_congr rfl fun k _ => ?_
  rw [show reduces_S16x128x512_S16x128.lift (ix2 r q) k = ix3 r q k from lift_lane r q k]
  rfl

/-- The reset's block is zero everywhere. -/
theorem reset_apply (j : S16x128.Idx) : k0_pay1 (F := Ideal) j = 0 := by
  unfold k0_pay1
  simp only [shapeCast_self]
  exact Ideal.ofBits_zero_f32

/-- The closing store's block is the root of what it loaded, entry by entry. -/
theorem root_apply (v : Vec Ideal S16x128 .f32) (j : S16x128.Idx) : k0_pay3 (F := Ideal) v j = Ideal.sqrt (v j) := rfl

end Cert.KernelIdeal.Payload

end
-- ==== Proof.KernelBlocks.lean ====
/-
  The input blocks, read through the windows.

  Both arguments enter the kernel reshaped to [128, 128, 2048]: entry (p, q, j) of the reshaped array is entry
  (128·p + q, j) of the argument (the same row-major position). The grid has 8 × 4 points, point t = 4·b + d; at it
  each input window holds rows 16·b … 16·b + 15 of the first axis, all 128 of the second, and lanes 512·d … 512·d + 511
  of the third. So entry (r, q, k) of the block at point t is entry ((16·(t/4) + r)·128 + q, 512·(t mod 4) + k) of the
  argument.
-/
import proofs.«176598_j9337258902044_1_alg».proof.Proof.Gen.KernelIdeal.Frame
import proofs.«176598_j9337258902044_1_alg».proof.Proof.DistSpec
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Cert.KernelIdeal Cert.KernelIdeal.Gen Cert.PairDist
open Idealize.ShloMosaic Idealize.ShloMosaic.TcCoe Idealize.SL.Sem Idealize.ShloMosaic.ValueIdx

variable (m : (ℓ : Loc nD τ sig) → Buf (Elt Ideal) ℓ)

/-- The first operand as the region finds it: the first argument reshaped. -/
theorem arr0_eq (c : Dev nD) : (V m c main_v0 : S128x128x2048.Idx → EReal)
    = shapeCast S128x128x2048 (m ((c : Thread nD τ).loc main_arg0)) shapeCasts_S16384x2048_S128x128x2048 := by
  show StableHlo.after hostOps0 (fun b => m (c, b)) (Proc.devRef .tc main_v0) = _
  after_results
  rfl

/-- The second operand as the region finds it: the second argument reshaped. -/
theorem arr1_eq (c : Dev nD) : (V m c main_v1 : S128x128x2048.Idx → EReal)
    = shapeCast S128x128x2048 (m ((c : Thread nD τ).loc main_arg1)) shapeCasts_S16384x2048_S128x128x2048 := by
  show StableHlo.after hostOps0 (fun b => m (c, b)) (Proc.devRef .tc main_v1) = _
  after_results
  rfl

/-- Where the two input windows sit at point t: row block t / 4, lane block t mod 4. -/
theorem index0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)
theorem index1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)

/-- Entry (r, q, k) of the first operand's block at point t. -/
theorem blk0_apply (c : Dev nD) (t : Fin cfg0.N) (r : Fin 16) (q : Fin 128) (k : Fin 512) :
    (iblk m c 0 t : Vec Ideal S16x128x512 .f32) (ix3 r q k)
      = at2 (m ((c : Thread nD τ).loc main_arg0)) ((16 * (t.val / 4) + r.val) * 128 + q.val) (512 * (t.val % 4) + k.val) := by
  have hN : t.val < 32 := lt_of_lt_of_eq t.isLt (show cfg0.N = 32 from N_0)
  have hr := r.isLt; have hq := q.isLt; have hk := k.isLt
  have hρ : (16 * (t.val / 4) + r.val) * 128 + q.val < 16384 := by omega
  have hl : 512 * (t.val % 4) + k.val < 2048 := by omega
  obtain ⟨i0, i1, i2⟩ := index0 t
  unfold at2
  rw [dif_pos ⟨hρ, hl⟩]
  unfold iblk
  rw [View.read_apply]
  show V m c main_v0 (((cfg0.win 0).blk t).view.emb (ix3 r q k)) = _
  rw [arr0_eq]
  refine shapeCast_apply _ _ _ _ ?_
  refine (Shape.rowMajor_val_two (d := ![16384, 2048]) _).trans
    (Eq.trans ?_ (Shape.rowMajor_val_three (d := ![128, 128, 2048]) _).symm)
  show ((16 * (t.val / 4) + r.val) * 128 + q.val) * 2048 + (512 * (t.val % 4) + k.val)
    = ((win0_0.index t 0 * 16 + 1 * r.val) * 128 + (win0_0.index t 1 * 128 + 1 * q.val)) * 2048 + (win0_0.index t 2 * 512 + 1 * k.val)
  rw [i0, i1, i2]
  omega

/-- Entry (r, q, k) of the second operand's block at point t. -/
theorem blk1_apply (c : Dev nD) (t : Fin cfg0.N) (r : Fin 16) (q : Fin 128) (k : Fin 512) :
    (iblk m c 1 t : Vec Ideal S16x128x512 .f32) (ix3 r q k)
      = at2 (m ((c : Thread nD τ).loc main_arg1)) ((16 * (t.val / 4) + r.val) * 128 + q.val) (512 * (t.val % 4) + k.val) := by
  have hN : t.val < 32 := lt_of_lt_of_eq t.isLt (show cfg0.N = 32 from N_0)
  have hr := r.isLt; have hq := q.isLt; have hk := k.isLt
  have hρ : (16 * (t.val / 4) + r.val) * 128 + q.val < 16384 := by omega
  have hl : 512 * (t.val % 4) + k.val < 2048 := by omega
  obtain ⟨i0, i1, i2⟩ := index1 t
  unfold at2
  rw [dif_pos ⟨hρ, hl⟩]
  unfold iblk
  rw [View.read_apply]
  show V m c main_v1 (((cfg0.win 1).blk t).view.emb (ix3 r q k)) = _
  rw [arr1_eq]
  refine shapeCast_apply _ _ _ _ ?_
  refine (Shape.rowMajor_val_two (d := ![16384, 2048]) _).trans
    (Eq.trans ?_ (Shape.rowMajor_val_three (d := ![128, 128, 2048]) _).symm)
  show ((16 * (t.val / 4) + r.val) * 128 + q.val) * 2048 + (512 * (t.val % 4) + k.val)
    = ((win0_1.index t 0 * 16 + 1 * r.val) * 128 + (win0_1.index t 1 * 128 + 1 * q.val)) * 2048 + (win0_1.index t 2 * 512 + 1 * k.val)
  rw [i0, i1, i2]
  omega

end Cert.KernelIdeal.Blocks

end
-- ==== Proof.KernelAcc.lean ====
/-
  The accumulator, point by point.

  Point n = 4·b + d works on row block b and lane block d. After it, entry (r, q) of the accumulator holds the sum of
  the squared offset differences over the first 512·(d + 1) lanes of row (16·b + r)·128 + q of the arguments: the
  first point of a row block starts from the zero block, every later one adds its 512 lanes to what the point before
  left, and the partial sums over a range of lanes extend block by block. After the fourth point that is the whole
  row's sum, and the output block the point stores is its square root.
-/
import proofs.«176598_j9337258902044_1_alg».proof.Proof.KernelPieces
import proofs.«176598_j9337258902044_1_alg».proof.Proof.KernelPayload
import proofs.«176598_j9337258902044_1_alg».proof.Proof.KernelBlocks

noncomputable section

namespace Cert.KernelIdeal.Acc

open Cert.KernelIdeal Cert.KernelIdeal.Gen Cert.PairDist
open Cert.KernelIdeal.Pieces Cert.KernelIdeal.Payload Cert.KernelIdeal.Blocks
open Idealize.ShloMosaic Idealize.ShloMosaic.TcCoe Idealize.SL.Sem Idealize.ShloMosaic.ValueIdx

variable (m : (ℓ : Loc nD τ sig) → Buf (Elt Ideal) ℓ)

/-- The two arguments on core c. -/
abbrev arg0 (c : Dev nD) : Arr := m ((c : Thread nD τ).loc main_arg0)
abbrev arg1 (c : Dev nD) : Arr := m ((c : Thread nD τ).loc main_arg1)

/-- The row of the arguments behind entry (r, q) of a block at point n. -/
abbrev rowAt (n r q : ℕ) : ℕ := (16 * (n / 4) + r) * 128 + q

/-- One point's step at (r, q): the accumulator there plus the point's 512 lanes of the row. -/
theorem contrib (c : Dev nD) (t : Fin cfg0.N) (acc : Vec Ideal S16x128 .f32) (r : Fin 16) (q : Fin 128) :
    k0_pay2 (F := Ideal) (iblk m c 0 t) (iblk m c 1 t) acc (ix2 r q)
      = acc (ix2 r q) + ∑ k : Fin 512, sqd (arg0 m c) (arg1 m c) (rowAt t.val r.val q.val) (512 * (t.val % 4) + k.val) := by
  refine (step_apply (iblk m c 0 t) (iblk m c 1 t) acc r q).trans ?_
  refine congrArg (acc (ix2 r q) + ·) (Finset.sum_congr rfl fun k _ => ?_)
  unfold sqd
  rw [blk0_apply m c t r q k, blk1_apply m c t r q k]

/-- At the first lane block the partial sum is the block's own sum. -/
theorem psum_first (X0 X1 : Arr) (ρ d : ℕ) (hd : d = 0) :
    ∑ k : Fin 512, sqd X0 X1 ρ (512 * d + k.val) = psum X0 X1 ρ (512 * (d + 1)) := by
  subst hd
  rw [psum_block, Nat.mul_zero, psum_zero]
  exact (zero_add _).symm

/-- After point n the accumulator holds the partial sums over the first 512·(n mod 4 + 1) lanes. -/
theorem acc_eq (c : Dev nD) : ∀ (n : ℕ) (h : n < cfg0.N) (r : Fin 16) (q : Fin 128),
    (outsAt0 m c n h).2 (ix2 r q) = psum (arg0 m c) (arg1 m c) (rowAt n r.val q.val) (512 * (n % 4 + 1))
  | 0, h, r, q => by
    rw [outsAt0_A m c ⟨0, h⟩ rfl (by show ¬(0 % 4 = 3); decide)]
    dsimp only
    refine (congrFun (acc_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) ((hcond0_0 ⟨0, h⟩).mpr rfl)
      (fun hh => absurd ((hcond0_1 ⟨0, h⟩).mp hh) (by show ¬(0 % 4 = 3); decide)) (iblk m c 0 ⟨0, h⟩) (iblk m c 1 ⟨0, h⟩)) (ix2 r q)).trans ?_
    refine (contrib m c ⟨0, h⟩ (k0_pay1 (F := Ideal)) r q).trans ?_
    rw [reset_apply, zero_add]
    exact psum_first _ _ _ _ rfl
  | n + 1, h, r, q => by
    have ih := acc_eq c n (Nat.lt_of_succ_lt h) r q
    have hN : n + 1 < 32 := lt_of_lt_of_eq h (show cfg0.N = 32 from N_0)
    by_cases h0 : (n + 1) % 4 = 0
    · have h1 : ¬(n + 1) % 4 = 3 := by omega
      rw [outsAt0_A m c ⟨n + 1, h⟩ h0 h1]
      dsimp only
      refine (congrFun (acc_first (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) ((hcond0_0 ⟨n + 1, h⟩).mpr h0)
        (fun hh => h1 ((hcond0_1 ⟨n + 1, h⟩).mp hh)) (iblk m c 0 ⟨n + 1, h⟩) (iblk m c 1 ⟨n + 1, h⟩)) (ix2 r q)).trans ?_
      refine (contrib m c ⟨n + 1, h⟩ (k0_pay1 (F := Ideal)) r q).trans ?_
      rw [reset_apply, zero_add]
      exact psum_first _ _ _ _ h0
    · have e4 : (n + 1) / 4 = n / 4 := by omega
      have e5 : (n + 1) % 4 = n % 4 + 1 := by omega
      by_cases h1 : (n + 1) % 4 = 3
      · rw [outsAt0_C m c ⟨n + 1, h⟩ h0 h1]
        dsimp only
        refine (congrFun (acc_last (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => h0 ((hcond0_0 ⟨n + 1, h⟩).mp hh))
          ((hcond0_1 ⟨n + 1, h⟩).mpr h1) (iblk m c 0 ⟨n + 1, h⟩) (iblk m c 1 ⟨n + 1, h⟩) (outsAt0 m c n (Nat.lt_of_succ_lt h)).2) (ix2 r q)).trans ?_
        refine (contrib m c ⟨n + 1, h⟩ (outsAt0 m c n (Nat.lt_of_succ_lt h)).2 r q).trans ?_
        rw [ih]
        show psum _ _ (rowAt n r.val q.val) (512 * (n % 4 + 1)) + ∑ k : Fin 512, sqd _ _ (rowAt (n + 1) r.val q.val) (512 * ((n + 1) % 4) + k.val) = _
        unfold rowAt
        rw [e4, e5]
        exact (psum_block _ _ _ (n % 4 + 1)).symm
      · rw [outsAt0_B m c ⟨n + 1, h⟩ h0 h1]
        dsimp only
        refine (congrFun (acc_middle (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => h0 ((hcond0_0 ⟨n + 1, h⟩).mp hh))
          (fun hh => h1 ((hcond0_1 ⟨n + 1, h⟩).mp hh)) (iblk m c 0 ⟨n + 1, h⟩) (iblk m c 1 ⟨n + 1, h⟩) (outsAt0 m c n (Nat.lt_of_succ_lt h)).2) (ix2 r q)).trans ?_
        refine (contrib m c ⟨n + 1, h⟩ (outsAt0 m c n (Nat.lt_of_succ_lt h)).2 r q).trans ?_
        rw [ih]
        show psum _ _ (rowAt n r.val q.val) (512 * (n % 4 + 1)) + ∑ k : Fin 512, sqd _ _ (rowAt (n + 1) r.val q.val) (512 * ((n + 1) % 4) + k.val) = _
        unfold rowAt
        rw [e4, e5]
        exact (psum_block _ _ _ (n % 4 + 1)).symm

/-- The output block stored at the fourth point of a row block: at (r, q) the root of the row's whole sum. -/
theorem out_eq (c : Dev nD) (t : Fin cfg0.N) (h3 : t.val % 4 = 3) (r : Fin 16) (q : Fin 128) :
    (outsAt0 m c t.val t.isLt).1 (ix2 r q) = Ideal.sqrt (psum (arg0 m c) (arg1 m c) (rowAt t.val r.val q.val) 2048) := by
  have h0 : ¬t.val % 4 = 0 := by omega
  have e := acc_eq m c t.val t.isLt r q
  rw [outsAt0_C m c t h0 h3] at e ⊢
  dsimp only at e ⊢
  rw [congrFun (acc_last (F := Ideal) c (grid0.coords t) (ms0_0 t) (hs0_0 t) (ms0_1 t) (hs0_1 t) (ms0_2 t) (hs0_2 t) scM0_0
    (Memref.isWhole_whole _) (fun hh => h0 ((hcond0_0 t).mp hh)) ((hcond0_1 t).mpr h3) (iblk m c 0 t) (iblk m c 1 t)
    (outsAt0 m c (t.val - 1) (Nat.lt_of_le_of_lt (Nat.sub_le _ _) t.isLt)).2) (ix2 r q)] at e
  refine (congrFun (out_last (F := Ideal) c (grid0.coords t) (ms0_0 t) (hs0_0 t) (ms0_1 t) (hs0_1 t) (ms0_2 t) (hs0_2 t) scM0_0
    (Memref.isWhole_whole _) (fun hh => h0 ((hcond0_0 t).mp hh)) ((hcond0_1 t).mpr h3) (iblk m c 0 t) (iblk m c 1 t)
    (outsAt0 m c (t.val - 1) (Nat.lt_of_le_of_lt (Nat.sub_le _ _) t.isLt)).2) (ix2 r q)).trans ?_
  refine (root_apply _ _).trans ?_
  rw [e, h3]

end Cert.KernelIdeal.Acc

end
-- ==== Proof.KernelTail.lean ====
/-
  The host operations after the region, as the loss.

  After the region the kernel program runs, on the array the region left and on the labels, the same operations the
  reference ends with: the mask of equal labels, the two masked selects against ±M, the row maximum and minimum, the
  hinge with the margin, and the mean. So its result is the loss of that array and the labels; the array is the one
  the output window's write-backs produced, and the labels are the third argument, which nothing before has written.
-/
import proofs.«176598_j9337258902044_1_alg».proof.Proof.Gen.KernelIdeal.Frame
import proofs.«176598_j9337258902044_1_alg».proof.Proof.RefTerm
import Idealize.ShloMosaic.Lib.StableHlo.Run
import Idealize.ShloMosaic.Lib.Tactic

noncomputable section

namespace Cert.KernelIdeal.Tail

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- What the tail reads as the distance matrix: the output array after the region's write-backs. -/
theorem read_array (c : Dev nD) :
    Pipeline.withArrays (cfgs 0).spec c (V0 m c) (fun w => (dats m 0 c).arrAt w (cfgs 0).N) (Proc.devRef .tc main_v2)
      = (dats m 0 c).arrAt 2 cfg0.N :=
  Pipeline.withArrays_arr spec0 launch0.win.arr_inj c _ _ 2

/-- What the tail reads as the labels: the third argument as launched. -/
theorem read_labels (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

set_option maxHeartbeats 2000000 in
/-- The program's result after the tail is the loss of what the tail reads. -/
theorem tail_reads (c : Dev nD) :
    Pipeline.afterTail₀ cfgs (dats m) 0 (V0 m) [hostOps1, hostOps1_1, hostOps1_2, hostOps1_3, hostOps1_4] c main_v19
      = Cert.ReferenceIdeal.Loss.loss (F := F)
          (Pipeline.withArrays (cfgs 0).spec c (V0 m c) (fun w => (dats m 0 c).arrAt w (cfgs 0).N) (Proc.devRef .tc main_v2))
          (Pipeline.withArrays (cfgs 0).spec c (V0 m c) (fun w => (dats m 0 c).arrAt w (cfgs 0).N) (Proc.devRef .tc main_arg2)) := by
  unfold Pipeline.afterTail₀
  simp only [hostOps1, hostOps1_1, hostOps1_2, hostOps1_3, hostOps1_4, List.flatten_cons, List.flatten_nil, List.append_nil,
    List.cons_append, List.nil_append]
  after_results_simp <;> rfl

/-- The program's result: the loss of the array the region left and of the labels. -/
theorem tail_eq (c : Dev nD) :
    Pipeline.afterTail₀ cfgs (dats m) 0 (V0 m) [hostOps1, hostOps1_1, hostOps1_2, hostOps1_3, hostOps1_4] c main_v19
      = Cert.ReferenceIdeal.Loss.loss (F := F) ((dats m 0 c).arrAt 2 cfg0.N) (m ((c : Thread nD τ).loc main_arg2)) :=
  (tail_reads m c).trans (congrArg₂ (Cert.ReferenceIdeal.Loss.loss (F := F)) (read_array m c) (read_labels m c))

end Cert.KernelIdeal.Tail

end
-- ==== Proof.KernelResult.lean ====
/-
  The kernel program's result.

  The output window is written back only at the fourth point of each row block, t = 4·b + 3, and what is written is the
  block of square roots of the accumulated row sums: rows 16·b … 16·b + 15 of the distance matrix. The eight write-backs
  tile the [128, 128] array (pair row p lies in row block p / 16), so after the region the array IS the distance
  matrix of the two arguments. The host operations after the region then compute the loss of that matrix and the
  labels: the same tail as the reference's, applied to the array the region left and to the label argument, which
  no operation writes.
-/
import proofs.«176598_j9337258902044_1_alg».proof.Defs
import proofs.«176598_j9337258902044_1_alg».proof.Proof.KernelAcc
import proofs.«176598_j9337258902044_1_alg».proof.Proof.RefTerm
import proofs.«176598_j9337258902044_1_alg».proof.Proof.KernelTail

noncomputable section

namespace Cert.KernelIdeal.Result

open Cert.KernelIdeal Cert.KernelIdeal.Gen Cert.PairDist Cert.KernelIdeal.Acc
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Where the output window sits at point t: row block t / 4. -/
theorem index2 : ∀ t : Fin cfg0.N, win0_2.index t 0 = t.val / 4 ∧ win0_2.index t 1 = 0 :=
  (by decide +kernel : ∀ t : Fin grid0.N, win0_2.index t 0 = t.val / 4 ∧ win0_2.index t 1 = 0)

/-- What a write-back writes: its block of the distance matrix. -/
theorem flushed_eq (c : Dev nD) (t : Fin cfg0.N) (hf : (cfg0.win 2).flush t = true) :
    (dats m 0 c).flushed 2 t = ((cfg0.win 2).blk t).view.read (Elt Ideal) (pairDist (arg0 m c) (arg1 m c)) := by
  have h3 : t.val % 4 = 3 := (flush0_2 t).mp hf
  obtain ⟨i0, i1⟩ := index2 t
  show (cfg0.win 2).cut (grid0.coords t) ((dats m 0 c).after 2 t) = _
  rw [after0_2]
  funext j
  show (outsAt0 m c t.val t.isLt).1 j = pairDist (arg0 m c) (arg1 m c) (((cfg0.win 2).blk t).view.emb j)
  have hj : (j : S16x128.Idx) = ix2 (j 0) (j 1) := eq_ix2 (n0 := 16) (n1 := 128) j
  refine (congrArg (fun y : S16x128.Idx => (outsAt0 m c t.val t.isLt).1 y) hj).trans ((out_eq m c t h3 (j 0) (j 1)).trans ?_)
  unfold pairDist
  refine congrArg (fun n => Ideal.sqrt (psum (arg0 m c) (arg1 m c) n 2048)) ?_
  show (16 * (t.val / 4) + (j 0).val) * 128 + (j 1).val
    = (win0_2.index t 0 * 16 + 1 * (j 0).val) * 128 + (win0_2.index t 1 * 128 + 1 * (j 1).val)
  rw [i0, i1]
  omega

/-- An index of the array is in point t's block iff each coordinate is in the block's range on its axis. -/
theorem mem_blk (t : Fin cfg0.N) (i : S128x128.Idx) :
    i ∈ ((cfg0.win 2).blk t).view.set
      ↔ ∀ a : Fin 2, win0_2.index t a * S16x128.size a ≤ (i a).val ∧ (i a).val < win0_2.index t a * S16x128.size a + S16x128.size a := by
  show i ∈ ((View.whole main_v2).slice (win0_2.rect t)).set ↔ _
  rw [View.set_slice_whole, Rect.mem_set_unit]
  exact Iff.rfl

/-- Every pair row is written back: row p at the fourth point of row block p / 16. -/
theorem cover (i : S128x128.Idx) : ∃ t : Fin cfg0.N, (cfg0.win 2).flush t = true ∧ i ∈ ((cfg0.win 2).blk t).view.set := by
  have hi0 : (i 0).val < 128 := (i 0).isLt
  have hi1 : (i 1).val < 128 := (i 1).isLt
  have hN : cfg0.N = 32 := N_0
  refine ⟨⟨4 * ((i 0).val / 16) + 3, by rw [hN]; omega⟩, (flush0_2 _).mpr (by show (4 * ((i 0).val / 16) + 3) % 4 = 3; omega), ?_⟩
  rw [mem_blk]
  obtain ⟨i0, i1⟩ := index2 ⟨4 * ((i 0).val / 16) + 3, by rw [hN]; omega⟩
  intro a
  match a with
  | ⟨0, _⟩ =>
    show win0_2.index _ 0 * 16 ≤ (i 0).val ∧ (i 0).val < win0_2.index _ 0 * 16 + 16
    rw [i0]; show (4 * ((i 0).val / 16) + 3) / 4 * 16 ≤ (i 0).val ∧ (i 0).val < (4 * ((i 0).val / 16) + 3) / 4 * 16 + 16; omega
  | ⟨1, _⟩ =>
    show win0_2.index _ 1 * 128 ≤ (i 1).val ∧ (i 1).val < win0_2.index _ 1 * 128 + 128
    rw [i1]; omega

/-- After the region the output array is the distance matrix of the arguments. -/
theorem array_eq (c : Dev nD) : (dats m 0 c).arrAt 2 cfg0.N = pairDist (arg0 m c) (arg1 m c) :=
  (dats m 0 c).arrAt_eq_of_cover 2 (pairDist (arg0 m c) (arg1 m c)) (fun t hf => flushed_eq m c t hf) cover

/-- The kernel program's run, read: its result at the loss of the arguments' distance matrix and the labels, the
    arguments unchanged. -/
theorem run : θ_run defs (onTc (τ := τ) (main (F := Ideal))) ⟨m, fun _ => 0, ρ⟩ fun r => ∀ c : Dev nD,
      r.2.mem ((c.tc : Thread nD τ).loc main_v19)
        = Cert.ReferenceIdeal.Loss.loss (F := Ideal) (pairDist (arg0 m c) (arg1 m c)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans
        ((Cert.KernelIdeal.Tail.tail_eq m c).trans
          (congrArg (fun D => Cert.ReferenceIdeal.Loss.loss (F := Ideal) D (m ((c.tc : Thread nD τ).loc main_arg2))) (array_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  The triplet loss with hardest positives and negatives, its pairwise distances computed by a blocked kernel, against
  the plain jnp reference — equal over the extended reals.

  Both programs take two [16384, 2048] f32 arrays and 128 integer labels. Row 128·p + q holds the features of the pair
  (p, q), and the distance of the pair is √(∑ⱼ (x₀ − x₁ + ε)²) over the row's 2048 lanes. The reference computes that
  with one sum per row and reshapes the 16384 roots to [128, 128]. The kernel reshapes the arguments to
  [128, 128, 2048] and walks an 8 × 4 grid: point (b, d) adds, into a [16, 128] accumulator it resets at d = 0, the
  sums over lanes 512·d … 512·d + 511 of rows 16·b … 16·b + 15, and at d = 3 stores the roots of the accumulator as
  rows 16·b … 16·b + 15 of the distance matrix. Over the extended reals a row's sum taken in four consecutive pieces
  from zero is the row's sum (addition there is commutative and associative; nothing has to be finite), the kernel's
  square root and the host's are one function, and the eight stored blocks tile the matrix: the two distance matrices
  are equal. Both programs then apply the same operations to the matrix and the labels — the mask of equal labels, the
  masked row maximum and minimum against ±M, the hinge with the margin, the mean — so their results are equal.

  The idealization rewrote no operation, so that the idealized kernel is the kernel's sanctioned idealization holds
  trivially; the three programs' runs terminate with the arguments unchanged by the kernels' frame runs and the
  reference's run.
-/
import proofs.«176598_j9337258902044_1_alg».proof.Defs
import proofs.«176598_j9337258902044_1_alg».proof.Proof.Gen.Kernel
import proofs.«176598_j9337258902044_1_alg».proof.Proof.Gen.Kernel.Frame
import proofs.«176598_j9337258902044_1_alg».proof.Proof.Gen.KernelIdeal
import proofs.«176598_j9337258902044_1_alg».proof.Proof.Gen.KernelIdeal.Frame
import proofs.«176598_j9337258902044_1_alg».proof.Proof.Gen.ReferenceIdeal
import proofs.«176598_j9337258902044_1_alg».proof.Proof.Gen.ReferenceIdeal.Run
import proofs.«176598_j9337258902044_1_alg».proof.Proof.Gen.Pre_finite_inputs
import proofs.«176598_j9337258902044_1_alg».proof.Proof.RefTerm
import proofs.«176598_j9337258902044_1_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel program ends at the loss of the arguments' distance matrix
    and the reference at the loss of its distance stage of the same arguments: the same matrix, hence the same loss. -/
theorem algebraic : Cert.algebraic_KernelIdeal_ReferenceIdeal := by
  intro m ρ m' ρ' _ hagree
  refine ⟨fun c => Cert.ReferenceIdeal.Loss.loss (F := Ideal)
      (Cert.PairDist.pairDist (Cert.KernelIdeal.Acc.arg0 m c) (Cert.KernelIdeal.Acc.arg1 m c))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Loss.run (F := Ideal) m' ρ')
  rw [(hagree c).1, (hagree c).2.1, (hagree c).2.2, Cert.ReferenceIdeal.Loss.dist_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
